-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S2048 : Shape := ⟨1, ![2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S8192x4096 .f32) (main_arg1 : FVec F S4096x2048 .f32) (main_arg2 : FVec F S2048 .f32) (main_arg3 : FVec F S4096x2048 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Kernel.lean ====
abbrev S8192x4096 : Shape := ⟨2, ![8192, 4096]⟩
abbrev S4096x2048 : Shape := ⟨2, ![4096, 2048]⟩
abbrev S2048 : Shape := ⟨1, ![2048]⟩
abbrev S1x2048 : Shape := ⟨2, ![1, 2048]⟩
abbrev S8192x2048 : Shape := ⟨2, ![8192, 2048]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x2048.size a
  hwx0_1 : ∀ i : grid0.Coords, EltTy.bits .f32 = 32 ∨ (Rect.block (s := S4096x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x2048.size a
  hwx0_2 : ∀ i : grid0.Coords, EltTy.bits .f32 = 32 ∨ (Rect.block (s := S4096x2048) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x2048.size a
  hwx0_4 : ∀ i : grid0.Coords, EltTy.bits .f32 = 32 ∨ (Rect.block (s := S8192x2048) S1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x2048 : Shape := ⟨2, ![4096, 2048]⟩
abbrev S2048 : Shape := ⟨1, ![2048]⟩
abbrev S8192x2048 : Shape := ⟨2, ![8192, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x4096_S4096x2048_S8192x2048_1_0_0_1_n_n_wf : DotDims.WF S8192x4096 S4096x2048 S8192x2048 [1] [0] [0] [1] [] []

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf

class Facts : Prop extends Facts₀ where

variable [Facts]
-- ==== Proof.Spec.lean ====
/-
  A dense layer whose weights are switched on and off by a second matrix: row a of the result is
  x_a · (W ∘ M) + b, entry (a, n) being the sum over s of X[a, s] · (W[s, n] · M[s, n]), plus b[n]. The sum is taken
  over the natural numbers below the contraction length, the matrices read at natural-number coordinates, so that a
  sum over a first stretch of the contraction and a sum over the next stretch join by splitting a range: that is all
  an accumulation over consecutive blocks of the contraction needs, and it moves no term past another.
-/
import Idealize.ShloMosaic.PureOps.Ideal.Laws
import Idealize.ShloMosaic.Lib.ValueIdx

noncomputable section

open scoped BigOperators

namespace Cert.MaskedDense

open Idealize.ShloMosaic Idealize.ShloMosaic.ValueIdx

abbrev Sh2 (a b : ℕ) : Shape := ⟨2, ![a, b]⟩
abbrev Sh1 (a : ℕ) : Shape := ⟨1, ![a]⟩

variable {R K N : ℕ}

/-- A matrix entry named by two natural numbers (zero outside the matrix, where nothing below reads it). -/
def at2 {n0 n1 : ℕ} (X : (Sh2 n0 n1).Idx → EReal) (a b : ℕ) : EReal :=
  if h : a < n0 ∧ b < n1 then X (ix2 ⟨a, h.1⟩ ⟨b, h.2⟩) else 0

/-- At the coordinates of an index it is the entry there. -/
theorem at2_of_idx {n0 n1 : ℕ} (X : (Sh2 n0 n1).Idx → EReal) (i : (Sh2 n0 n1).Idx) (a b : ℕ)
    (ha : (i 0).val = a) (hb : (i 1).val = b) : at2 X a b = X i := by
  subst ha hb
  unfold at2
  rw [dif_pos ⟨(i 0).isLt, (i 1).isLt⟩]
  exact congrArg X (eq_ix2 i).symm

/-- One term of the contraction: X[a, s] · (W[s, n] · M[s, n]). -/
def term (X : (Sh2 R K).Idx → EReal) (W M : (Sh2 K N).Idx → EReal) (a n s : ℕ) : EReal :=
  at2 X a s * (at2 W s n * at2 M s n)

/-- The contraction's first `len` terms. -/
def partialDot (X : (Sh2 R K).Idx → EReal) (W M : (Sh2 K N).Idx → EReal) (a n len : ℕ) : EReal :=
  ∑ s ∈ Finset.range len, term X W M a n s

theorem partialDot_zero (X : (Sh2 R K).Idx → EReal) (W M : (Sh2 K N).Idx → EReal) (a n : ℕ) :
    partialDot X W M a n 0 = 0 := Finset.sum_range_zero _

/-- The first `len + w` terms are the first `len` and then the next `w`, the latter summed over a block's own
    coordinate. -/
theorem partialDot_add (X : (Sh2 R K).Idx → EReal) (W M : (Sh2 K N).Idx → EReal) (a n len w : ℕ) :
    partialDot X W M a n (len + w) = partialDot X W M a n len + ∑ r : Fin w, term X W M a n (len + r.val) := by
  unfold partialDot
  rw [Finset.sum_range_add, Fin.sum_univ_eq_sum_range (fun r => term X W M a n (len + r)) w]

/-- The layer: the whole contraction plus the bias. -/
def layer (X : (Sh2 R K).Idx → EReal) (W M : (Sh2 K N).Idx → EReal) (b : (Sh1 N).Idx → EReal) : (Sh2 R N).Idx → EReal :=
  fun i => partialDot X W M (i 0).val (i 1).val K + b (ix1 (i 1))

/-- The whole contraction as a sum over the contraction's own coordinate. -/
theorem partialDot_full (X : (Sh2 R K).Idx → EReal) (W M : (Sh2 K N).Idx → EReal) (a : Fin R) (n : Fin N) :
    partialDot X W M a.val n.val K = ∑ s : Fin K, X (ix2 a s) * (W (ix2 s n) * M (ix2 s n)) := by
  unfold partialDot
  rw [← Fin.sum_univ_eq_sum_range (fun s => term X W M a.val n.val s) K]
  refine Finset.sum_congr rfl fun s _ => ?_
  unfold term
  rw [at2_of_idx X (ix2 a s) a.val s.val rfl rfl, at2_of_idx W (ix2 s n) s.val n.val rfl rfl,
    at2_of_idx M (ix2 s n) s.val n.val rfl rfl]

end Cert.MaskedDense

end
-- ==== Proof.Pieces.lean ====
/-
  What one grid point leaves behind, case by case, as plain terms of the blocks it loaded. The body keeps a running
  block in a scratch buffer: at the first point of a run of four it stores the zero block there and then adds the
  product of the point's blocks to it; at every later point it adds the product to what the point before left; at
  the last point of the run it also stores the running block plus the bias row into the output block.
-/
import proofs.«109275_j4827543241279_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem offsets_zero : (![0, 0] : Fin 2 → Nat) = fun _ => 0 := funext fun a => by fin_cases a <;> rfl

/-- The first point of a run: the scratch is set to the zero block, read back, and ends at zero plus the product of
    the point's blocks. -/
theorem scratch_first (c : Dev nD) (i : grid0.Coords) (a3 : Memref sig .tc .vmem S1024x1024 .f32) (h3 : a3.IsWhole) (a4 : Memref sig .tc .vmem S1024x512 .f32) (h4 : a4.IsWhole) (a5 : Memref sig .tc .vmem S1024x512 .f32) (h5 : a5.IsWhole) (a6 : Memref sig .tc .vmem S1x512 .f32) (h6 : a6.IsWhole) (a7 : Memref sig .tc .vmem S1024x512 .f32) (h7 : a7.IsWhole) (a8 : Memref sig .tc .vmem S1024x512 .f32) (h8 : a8.IsWhole) (hc0 : cond0_0 i) (hc1 : ¬cond0_1 i) (x0 : Vec F S1024x1024 .f32) (x1 x2 : Vec F S1024x512 .f32) (x3 : Vec F S1x512 .f32) :
    sout0_A_0 c i a3 h3 a4 h4 a5 h5 a6 h6 a7 h7 a8 h8 hc0 hc1 x0 x1 x2 x3 = k0_pay2 x0 x1 x2 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x512) offsets_zero, View.readCov_unit_zero (S := S1024x512) _ offsets_zero]
  simp only [View.readAt_eq_ld, h3.read_unread, h4.read_unread, h5.read_unread, h6.read_unread, h8.read_unread,
    View.ld_unit_zero (S := S1024x1024) offsets_zero, View.ld_unit_zero (S := S1024x512) offsets_zero,
    View.ld_unit_zero (S := S1x512) offsets_zero]

/-- A later point of a run: the scratch ends at what the point before left plus the product of the point's blocks. -/
theorem scratch_mid (c : Dev nD) (i : grid0.Coords) (a3 : Memref sig .tc .vmem S1024x1024 .f32) (h3 : a3.IsWhole) (a4 : Memref sig .tc .vmem S1024x512 .f32) (h4 : a4.IsWhole) (a5 : Memref sig .tc .vmem S1024x512 .f32) (h5 : a5.IsWhole) (a6 : Memref sig .tc .vmem S1x512 .f32) (h6 : a6.IsWhole) (a7 : Memref sig .tc .vmem S1024x512 .f32) (h7 : a7.IsWhole) (a8 : Memref sig .tc .vmem S1024x512 .f32) (h8 : a8.IsWhole) (hc0 : ¬cond0_0 i) (hc1 : ¬cond0_1 i) (x0 : Vec F S1024x1024 .f32) (x1 x2 : Vec F S1024x512 .f32) (x3 : Vec F S1x512 .f32) (xs0 : Vec F S1024x512 .f32) :
    sout0_B_0 c i a3 h3 a4 h4 a5 h5 a6 h6 a7 h7 a8 h8 hc0 hc1 x0 x1 x2 x3 xs0 = k0_pay2 x0 x1 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero offsets_zero]
  simp only [View.readAt_eq_ld, h3.read_unread, h4.read_unread, h5.read_unread, h6.read_unread, h8.read_unread,
    View.ld_unit_zero (S := S1024x1024) offsets_zero, View.ld_unit_zero (S := S1024x512) offsets_zero,
    View.ld_unit_zero (S := S1x512) offsets_zero]

/-- The last point of a run leaves the scratch the same way; -/
theorem scratch_last (c : Dev nD) (i : grid0.Coords) (a3 : Memref sig .tc .vmem S1024x1024 .f32) (h3 : a3.IsWhole) (a4 : Memref sig .tc .vmem S1024x512 .f32) (h4 : a4.IsWhole) (a5 : Memref sig .tc .vmem S1024x512 .f32) (h5 : a5.IsWhole) (a6 : Memref sig .tc .vmem S1x512 .f32) (h6 : a6.IsWhole) (a7 : Memref sig .tc .vmem S1024x512 .f32) (h7 : a7.IsWhole) (a8 : Memref sig .tc .vmem S1024x512 .f32) (h8 : a8.IsWhole) (hc0 : ¬cond0_0 i) (hc1 : cond0_1 i) (x0 : Vec F S1024x1024 .f32) (x1 x2 : Vec F S1024x512 .f32) (x3 : Vec F S1x512 .f32) (xs0 : Vec F S1024x512 .f32) :
    sout0_C_0 c i a3 h3 a4 h4 a5 h5 a6 h6 a7 h7 a8 h8 hc0 hc1 x0 x1 x2 x3 xs0 = k0_pay2 x0 x1 x2 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero offsets_zero]
  simp only [View.readAt_eq_ld, h3.read_unread, h4.read_unread, h5.read_unread, h6.read_unread, h8.read_unread,
    View.ld_unit_zero (S := S1024x1024) offsets_zero, View.ld_unit_zero (S := S1024x512) offsets_zero,
    View.ld_unit_zero (S := S1x512) offsets_zero]

/-- and its output block is that running block, read back, plus the bias row repeated down the rows. -/
theorem out_last (c : Dev nD) (i : grid0.Coords) (a3 : Memref sig .tc .vmem S1024x1024 .f32) (h3 : a3.IsWhole) (a4 : Memref sig .tc .vmem S1024x512 .f32) (h4 : a4.IsWhole) (a5 : Memref sig .tc .vmem S1024x512 .f32) (h5 : a5.IsWhole) (a6 : Memref sig .tc .vmem S1x512 .f32) (h6 : a6.IsWhole) (a7 : Memref sig .tc .vmem S1024x512 .f32) (h7 : a7.IsWhole) (a8 : Memref sig .tc .vmem S1024x512 .f32) (h8 : a8.IsWhole) (hc0 : ¬cond0_0 i) (hc1 : cond0_1 i) (x0 : Vec F S1024x1024 .f32) (x1 x2 : Vec F S1024x512 .f32) (x3 : Vec F S1x512 .f32) (xs0 : Vec F S1024x512 .f32) :
    out0_C_4 c i a3 h3 a4 h4 a5 h5 a6 h6 a7 h7 a8 h8 hc0 hc1 x0 x1 x2 x3 xs0 = k0_pay3 (k0_pay2 x0 x1 x2 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero offsets_zero]
  simp only [View.readCov_unit_zero (S := S1024x512) _ offsets_zero, View.readAt_eq_ld, h3.read_unread, h4.read_unread, h5.read_unread, h6.read_unread, h8.read_unread,
    View.ld_unit_zero (S := S1024x1024) offsets_zero, View.ld_unit_zero (S := S1024x512) offsets_zero,
    View.ld_unit_zero (S := S1x512) offsets_zero]

end Cert.KernelIdeal.Pieces

end
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.Payload.lean ====
/-
  The three values the body stores, each read at one entry over the extended reals, where a change of float format
  changes no entry and a block product into a zero accumulator is the plain sum over the contracted coordinate:
  the zero block is zero; a step adds to the running entry the sum over r of x[p, r] · (w[r, q] · m[r, q]); the
  epilogue adds the bias row's entry in that column.
-/
import proofs.«109275_j4827543241279_1_alg».proof.Proof.Gen.KernelIdeal.Skeleton
import proofs.«109275_j4827543241279_1_alg».proof.Proof.LibDenseRows
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The block the first point of a run stores first is zero everywhere. -/
theorem zero_apply (j : S1024x512.Idx) : k0_pay1 (F := Ideal) j = 0 := by
  unfold k0_pay1
  rw [shapeCast_self]
  exact Ideal.ofBits_zero_f32

/-- One step at entry (p, q): the running entry plus the block product's entry. -/
theorem step_apply (x0 : Vec Ideal S1024x1024 .f32) (x1 x2 acc : Vec Ideal S1024x512 .f32) (p : Fin 1024) (q : Fin 512) :
    k0_pay2 x0 x1 x2 acc (ix2 p q) = acc (ix2 p q) + ∑ r : Fin 1024, x0 (ix2 p r) * (x1 (ix2 r q) * x2 (ix2 r q)) := by
  unfold k0_pay2
  rw [shapeCast_self, addf_apply]
  congr 1
  exact Cert.LibDenseRows.matmul_plain_zero_apply none _ _ p q

/-- The epilogue at entry (p, q): the running entry plus the bias row's entry in column q. -/
theorem bias_apply (acc : Vec Ideal S1024x512 .f32) (b : Vec Ideal S1x512 .f32) (p : Fin 1024) (q : Fin 512) :
    k0_pay3 acc b (ix2 p q) = acc (ix2 p q) + b (ix2 (0 : Fin 1) q) := by
  unfold k0_pay3
  rw [addf_apply, shapeCast_self, broadcastTo_1b_ab_apply]

end Cert.KernelIdeal.Payload

end
-- ==== Proof.Blocks.lean ====
/-
  The blocks a grid point sees, as entries of the whole argument arrays. The 128 points run over 8 row blocks of the
  input (the slowest coordinate), 4 column blocks of the weights, and 4 blocks of the contraction (the fastest): at
  point t the row block is t / 16, the column block t / 4 mod 4, the contraction block t mod 4. Entry (p, r) of the
  input's block is X[1024·(t/16) + p, 1024·(t mod 4) + r]; entry (r, q) of the weights' and of the switch matrix's block
  is the entry at [1024·(t mod 4) + r, 512·(t/4 mod 4) + q]; the bias, made a one-row matrix before the grid runs,
  is seen through a block of 512 columns, whose entry q is b[512·(t/4 mod 4) + q].
-/
import proofs.«109275_j4827543241279_1_alg».proof.Proof.Gen.KernelIdeal.Frame
import proofs.«109275_j4827543241279_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.MaskedDense

variable (m : (ℓ : Loc nD τ sig) → Buf (Elt Ideal) ℓ)

/-! ## Which block each window shows at a point -/

theorem index0 : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem index1 : ∀ t : Fin cfg0.N, win0_1.index t (0 : Fin 2) = t.val % 4 ∧ win0_1.index t (1 : Fin 2) = t.val / 4 % 4 :=
  (by decide +kernel : ∀ t : Fin grid0.N, win0_1.index t (0 : Fin 2) = t.val % 4 ∧ win0_1.index t (1 : Fin 2) = t.val / 4 % 4)
theorem index2 : ∀ t : Fin cfg0.N, win0_2.index t (0 : Fin 2) = t.val % 4 ∧ win0_2.index t (1 : Fin 2) = t.val / 4 % 4 :=
  (by decide +kernel : ∀ t : Fin grid0.N, win0_2.index t (0 : Fin 2) = t.val % 4 ∧ win0_2.index t (1 : Fin 2) = t.val / 4 % 4)
theorem index3 : ∀ t : Fin cfg0.N, win0_3.index t (0 : Fin 2) = 0 ∧ win0_3.index t (1 : Fin 2) = t.val / 4 % 4 :=
  (by decide +kernel : ∀ t : Fin grid0.N, win0_3.index t (0 : Fin 2) = 0 ∧ win0_3.index t (1 : Fin 2) = t.val / 4 % 4)
theorem index4 : ∀ t : Fin cfg0.N, win0_4.index t (0 : Fin 2) = t.val / 16 ∧ win0_4.index t (1 : Fin 2) = t.val / 4 % 4 :=
  (by decide +kernel : ∀ t : Fin grid0.N, win0_4.index t (0 : Fin 2) = t.val / 16 ∧ win0_4.index t (1 : Fin 2) = t.val / 4 % 4)

/-! ## The argument arrays and the blocks, at their literal shapes -/

abbrev argX (c : Dev nD) : (Sh2 8192 4096).Idx → EReal := m ((c : Thread nD τ).loc main_arg0)
abbrev argW (c : Dev nD) : (Sh2 4096 2048).Idx → EReal := m ((c : Thread nD τ).loc main_arg1)
abbrev argB (c : Dev nD) : (Sh1 2048).Idx → EReal := m ((c : Thread nD τ).loc main_arg2)
abbrev argM (c : Dev nD) : (Sh2 4096 2048).Idx → EReal := m ((c : Thread nD τ).loc main_arg3)

abbrev xblk (c : Dev nD) (t : Fin cfg0.N) : Vec Ideal S1024x1024 .f32 := iblk m c 0 t
abbrev wblk (c : Dev nD) (t : Fin cfg0.N) : Vec Ideal S1024x512 .f32 := iblk m c 1 t
abbrev mblk (c : Dev nD) (t : Fin cfg0.N) : Vec Ideal S1024x512 .f32 := iblk m c 2 t
abbrev bblk (c : Dev nD) (t : Fin cfg0.N) : Vec Ideal S1x512 .f32 := iblk m c 3 t

/-- The input's block. -/
theorem xblk_apply (c : Dev nD) (t : Fin cfg0.N) (p r : Fin 1024) :
    xblk m c t (ix2 p r) = at2 (argX m c) (t.val / 16 * 1024 + p.val) (t.val % 4 * 1024 + r.val) := by
  unfold xblk iblk
  rw [View.read_apply]
  show V m c main_arg0 _ = _
  rw [V_main_arg0]
  refine (at2_of_idx (argX m c) _ _ _ ?_ ?_).symm
  · show win0_0.index t 0 * 1024 + 1 * p.val = _
    rw [(index0 t).1]; omega
  · show win0_0.index t 1 * 1024 + 1 * r.val = _
    rw [(index0 t).2]; omega

/-- The weights' block. -/
theorem wblk_apply (c : Dev nD) (t : Fin cfg0.N) (r : Fin 1024) (q : Fin 512) :
    wblk m c t (ix2 r q) = at2 (argW m c) (t.val % 4 * 1024 + r.val) (t.val / 4 % 4 * 512 + q.val) := by
  unfold wblk iblk
  rw [View.read_apply]
  show V m c main_arg1 _ = _
  rw [V_main_arg1]
  refine (at2_of_idx (argW m c) _ _ _ ?_ ?_).symm
  · show win0_1.index t 0 * 1024 + 1 * r.val = _
    rw [(index1 t).1]; omega
  · show win0_1.index t 1 * 512 + 1 * q.val = _
    rw [(index1 t).2]; omega

/-- The switch matrix's block. -/
theorem mblk_apply (c : Dev nD) (t : Fin cfg0.N) (r : Fin 1024) (q : Fin 512) :
    mblk m c t (ix2 r q) = at2 (argM m c) (t.val % 4 * 1024 + r.val) (t.val / 4 % 4 * 512 + q.val) := by
  unfold mblk iblk
  rw [View.read_apply]
  show V m c main_arg3 _ = _
  rw [V_main_arg3]
  refine (at2_of_idx (argM m c) _ _ _ ?_ ?_).symm
  · show win0_2.index t 0 * 1024 + 1 * r.val = _
    rw [(index2 t).1]; omega
  · show win0_2.index t 1 * 512 + 1 * q.val = _
    rw [(index2 t).2]; omega

/-- Before the grid runs the bias vector is made a one-row matrix. -/
theorem bias_row (c : Dev nD) :
    (V m c main_v0 : S1x2048.Idx → EReal) = shapeCast S1x2048 (argB m c) shapeCasts_S2048_S1x2048 := by
  dsimp only [Gen.V, Gen.hostOps0]
  after_results
  rfl

/-- The bias row's block. -/
theorem bblk_apply (c : Dev nD) (t : Fin cfg0.N) (q : Fin 512) (hq : t.val / 4 % 4 * 512 + q.val < 2048) :
    bblk m c t (ix2 (0 : Fin 1) q) = argB m c (ix1 ⟨t.val / 4 % 4 * 512 + q.val, hq⟩) := by
  unfold bblk iblk
  rw [View.read_apply]
  show (V m c main_v0 : S1x2048.Idx → EReal) _ = _
  rw [bias_row]
  have e : (((cfg0.win 3).blk t).view.emb (ix2 (0 : Fin 1) q) : S1x2048.Idx) = ix2 (0 : Fin 1) ⟨t.val / 4 % 4 * 512 + q.val, hq⟩ := by
    funext a
    apply Fin.ext
    match a with
    | ⟨0, _⟩ => show win0_3.index t 0 * 1 + 1 * 0 = 0; rw [(index3 t).1]
    | ⟨1, _⟩ => show win0_3.index t 1 * 512 + 1 * q.val = t.val / 4 % 4 * 512 + q.val; rw [(index3 t).2]; omega
  rw [e, shapeCast_a_1a_apply]

end Cert.KernelIdeal.Blocks

end
-- ==== Proof.Accum.lean ====
/-
  What the scratch buffer holds after each grid point, and what the last point of a run of four stores. Write the
  point as t, its row block as t / 16, its column block as t / 4 mod 4, its contraction block as k = t mod 4. After
  point t the scratch entry (p, q) is the sum of the first (k + 1)·1024 terms of the contraction for the result entry
  (1024·(t/16) + p, 512·(t/4 mod 4) + q): at k = 0 the scratch is set to zero and the first 1024 terms are added; at a
  later point the next 1024 terms are added to what the point before left, and the point before has the same row and
  column block. At k = 3 all 4096 terms are there, and the block stored to the output is that plus the bias.
-/
import proofs.«109275_j4827543241279_1_alg».proof.Proof.Gen.KernelIdeal.Frame
import proofs.«109275_j4827543241279_1_alg».proof.Proof.Spec
import proofs.«109275_j4827543241279_1_alg».proof.Proof.Pieces
import proofs.«109275_j4827543241279_1_alg».proof.Proof.Payload
import proofs.«109275_j4827543241279_1_alg».proof.Proof.Blocks

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.MaskedDense Cert.KernelIdeal.Blocks

variable (m : (ℓ : Loc nD τ sig) → Buf (Elt Ideal) ℓ)

/-- The first `len` terms of the contraction for the result entry that point `n`'s entry (p, q) belongs to. -/
abbrev partialAt (c : Dev nD) (n : ℕ) (p : Fin 1024) (q : Fin 512) (len : ℕ) : EReal :=
  partialDot (argX m c) (argW m c) (argM m c) (n / 16 * 1024 + p.val) (n / 4 % 4 * 512 + q.val) len

/-- One step over a running block that holds the terms of the earlier contraction blocks: the sum now also has this
    point's 1024 terms. -/
theorem step_partial (c : Dev nD) (t : Fin cfg0.N) (acc : Vec Ideal S1024x512 .f32) (p : Fin 1024) (q : Fin 512)
    (hacc : acc (ix2 p q) = partialAt m c t.val p q (t.val % 4 * 1024)) :
    k0_pay2 (xblk m c t) (wblk m c t) (mblk m c t) acc (ix2 p q) = partialAt m c t.val p q ((t.val % 4 + 1) * 1024) := by
  rw [Payload.step_apply, hacc, show (t.val % 4 + 1) * 1024 = t.val % 4 * 1024 + 1024 by omega]
  unfold partialAt
  rw [partialDot_add]
  congr 1
  refine Finset.sum_congr rfl fun r _ => ?_
  unfold term
  rw [xblk_apply, wblk_apply, mblk_apply]

/-- THE RUNNING SUM: after point `n` the scratch holds the first (n mod 4 + 1)·1024 terms. -/
theorem scratch_eq (c : Dev nD) : ∀ (n : ℕ) (h : n < cfg0.N) (p : Fin 1024) (q : Fin 512),
    (outsAt0 m c n h).2 (ix2 p q) = partialAt m c n p q ((n % 4 + 1) * 1024) := by
  intro n
  induction n with
  | zero =>
    intro h p q
    have h0 : (⟨0, h⟩ : Fin cfg0.N).val % 4 = 0 := rfl
    have h1 : ¬(⟨0, h⟩ : Fin cfg0.N).val % 4 = 3 := by show ¬(0 : ℕ) % 4 = 3; decide
    rw [outsAt0_A m c ⟨0, h⟩ h0 h1]
    dsimp only
    refine (congrFun (Pieces.scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _)
      ((hcond0_0 ⟨0, h⟩).mpr h0) (fun hh => h1 ((hcond0_1 ⟨0, h⟩).mp hh)) (xblk m c ⟨0, h⟩) (wblk m c ⟨0, h⟩) (mblk m c ⟨0, h⟩) (bblk m c ⟨0, h⟩)) (ix2 p q)).trans ?_
    refine step_partial m c ⟨0, h⟩ _ p q ?_
    rw [Payload.zero_apply]
    exact (partialDot_zero _ _ _ _ _).symm
  | succ n ih =>
    intro h p q
    have hN : n + 1 < 128 := lt_of_lt_of_eq h (show cfg0.N = 128 from N_0)
    by_cases h0 : (⟨n + 1, h⟩ : Fin cfg0.N).val % 4 = 0
    · have h1 : ¬(⟨n + 1, h⟩ : Fin cfg0.N).val % 4 = 3 := by dsimp only at h0 ⊢; omega
      rw [outsAt0_A m c ⟨n + 1, h⟩ h0 h1]
      dsimp only
      refine (congrFun (Pieces.scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _)
        ((hcond0_0 ⟨n + 1, h⟩).mpr h0) (fun hh => h1 ((hcond0_1 ⟨n + 1, h⟩).mp hh)) (xblk m c ⟨n + 1, h⟩) (wblk m c ⟨n + 1, h⟩) (mblk m c ⟨n + 1, h⟩) (bblk m c ⟨n + 1, h⟩)) (ix2 p q)).trans ?_
      refine step_partial m c ⟨n + 1, h⟩ _ p q ?_
      rw [Payload.zero_apply]
      show (0 : EReal) = partialAt m c (n + 1) p q ((n + 1) % 4 * 1024)
      rw [show (n + 1) % 4 = 0 from h0, Nat.zero_mul]
      exact (partialDot_zero _ _ _ _ _).symm
    · have hprev : (outsAt0 m c ((⟨n + 1, h⟩ : Fin cfg0.N).val - 1) (Nat.lt_of_le_of_lt (Nat.sub_le _ _) h)).2 (ix2 p q)
          = partialAt m c (n + 1) p q ((n + 1) % 4 * 1024) := by
        have h0' : ¬(n + 1) % 4 = 0 := h0
        have e1 : n / 16 = (n + 1) / 16 := by omega
        have e2 : n / 4 % 4 = (n + 1) / 4 % 4 := by omega
        have e3 : n % 4 + 1 = (n + 1) % 4 := by omega
        show (outsAt0 m c n _).2 (ix2 p q) = _
        rw [ih _ p q]
        unfold partialAt
        rw [e1, e2, e3]
      by_cases h1 : (⟨n + 1, h⟩ : Fin cfg0.N).val % 4 = 3
      · rw [outsAt0_C m c ⟨n + 1, h⟩ h0 h1]
        dsimp only
        refine (congrFun (Pieces.scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _)
          (fun hh => h0 ((hcond0_0 ⟨n + 1, h⟩).mp hh)) ((hcond0_1 ⟨n + 1, h⟩).mpr h1) (xblk m c ⟨n + 1, h⟩) (wblk m c ⟨n + 1, h⟩) (mblk m c ⟨n + 1, h⟩) (bblk m c ⟨n + 1, h⟩)
          (outsAt0 m c ((⟨n + 1, h⟩ : Fin cfg0.N).val - 1) (Nat.lt_of_le_of_lt (Nat.sub_le _ _) h)).2) (ix2 p q)).trans ?_
        exact step_partial m c ⟨n + 1, h⟩ _ p q hprev
      · rw [outsAt0_B m c ⟨n + 1, h⟩ h0 h1]
        dsimp only
        refine (congrFun (Pieces.scratch_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _)
          (fun hh => h0 ((hcond0_0 ⟨n + 1, h⟩).mp hh)) (fun hh => h1 ((hcond0_1 ⟨n + 1, h⟩).mp hh)) (xblk m c ⟨n + 1, h⟩) (wblk m c ⟨n + 1, h⟩) (mblk m c ⟨n + 1, h⟩) (bblk m c ⟨n + 1, h⟩)
          (outsAt0 m c ((⟨n + 1, h⟩ : Fin cfg0.N).val - 1) (Nat.lt_of_le_of_lt (Nat.sub_le _ _) h)).2) (ix2 p q)).trans ?_
        exact step_partial m c ⟨n + 1, h⟩ _ p q hprev

end Cert.KernelIdeal.Accum

end
-- ==== Proof.Result.lean ====
/-
  From the blocks to the whole result array. Only the last point of each run of four writes its output block back, and
  what it writes is the layer function read through that block: entry (p, q) of the block at row block t / 16 and
  column block t / 4 mod 4 is the layer's entry (1024·(t/16) + p, 512·(t/4 mod 4) + q). The 32 blocks so written tile
  the 8192 × 2048 array — entry (a, n) lies in the block of the point 16·(a / 1024) + 4·(n / 512) + 3 — so the array
  ends holding the layer function of the four arguments.
-/
import proofs.«109275_j4827543241279_1_alg».proof.Proof.Gen.KernelIdeal.Value
import proofs.«109275_j4827543241279_1_alg».proof.Proof.Accum

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.MaskedDense Cert.KernelIdeal.Blocks Cert.KernelIdeal.Accum

variable (m : (ℓ : Loc nD τ sig) → Buf (Elt Ideal) ℓ) (ρ : Dev nD → PrngReg)

/-- What the result array ends holding: the layer function of the four arguments. -/
abbrev result (c : Dev nD) : Buf (Elt Ideal) ((c : Thread nD τ).loc main_v1) :=
  layer (R := 8192) (K := 4096) (N := 2048) (argX m c) (argW m c) (argM m c) (argB m c)

/-- Before a point that is not the first of its run, the scratch holds the terms of the earlier contraction blocks of
    the same result entries. -/
theorem before_eq (c : Dev nD) (t : Fin cfg0.N) (h0 : ¬t.val % 4 = 0) (p : Fin 1024) (q : Fin 512) :
    (outsAt0 m c (t.val - 1) (Nat.lt_of_le_of_lt (Nat.sub_le _ _) t.isLt)).2 (ix2 p q)
      = partialAt m c t.val p q (t.val % 4 * 1024) := by
  rw [scratch_eq m c (t.val - 1) _ p q]
  have hN : t.val < 128 := lt_of_lt_of_eq t.isLt (show cfg0.N = 128 from N_0)
  have e1 : (t.val - 1) / 16 = t.val / 16 := by omega
  have e2 : (t.val - 1) / 4 % 4 = t.val / 4 % 4 := by omega
  have e3 : (t.val - 1) % 4 + 1 = t.val % 4 := by omega
  unfold partialAt
  rw [e1, e2, e3]

/-- The block the last point of a run stores, entry by entry, is the layer function at the entry's place in the array. -/
theorem out_eq (c : Dev nD) (t : Fin cfg0.N) (h3 : t.val % 4 = 3) (j : S1024x512.Idx) (i : S8192x2048.Idx)
    (hi0 : (i 0).val = t.val / 16 * 1024 + (j 0).val) (hi1 : (i 1).val = t.val / 4 % 4 * 512 + (j 1).val) :
    (outsAt0 m c t.val t.isLt).1 j = result m c i := by
  obtain ⟨p, q, rfl⟩ : ∃ (p : Fin 1024) (q : Fin 512), j = ix2 p q := ⟨j 0, j 1, eq_ix2 j⟩
  have h0 : ¬t.val % 4 = 0 := by omega
  have hq : t.val / 4 % 4 * 512 + q.val < 2048 := by have := q.isLt; omega
  rw [outsAt0_C m c t h0 h3]
  dsimp only
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun hh => h0 ((hcond0_0 t).mp hh)) ((hcond0_1 t).mpr h3) (xblk m c t) (wblk m c t) (mblk m c t) (bblk m c t)
    (outsAt0 m c (t.val - 1) (Nat.lt_of_le_of_lt (Nat.sub_le _ _) t.isLt)).2) (ix2 p q)).trans ?_
  rw [Payload.bias_apply, step_partial m c t _ p q (before_eq m c t h0 p q), bblk_apply m c t q hq]
  show partialAt m c t.val p q ((t.val % 4 + 1) * 1024) + argB m c (ix1 ⟨t.val / 4 % 4 * 512 + q.val, hq⟩)
    = partialDot (argX m c) (argW m c) (argM m c) (i 0).val (i 1).val 4096 + argB m c (ix1 (i 1))
  have eb : (⟨t.val / 4 % 4 * 512 + q.val, hq⟩ : Fin 2048) = i 1 := Fin.ext hi1.symm
  unfold partialAt
  rw [hi0, hi1, eb, h3]

/-- What a writing point writes back is the layer function read through the point's block. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  rw [Value.flushed4]
  funext j
  show (outsAt0 m c t.val t.isLt).1 j = result m c (((cfg0.win 4).blk t).view.emb j)
  refine out_eq m c t h3 j _ ?_ ?_
  · show win0_4.index t 0 * 1024 + 1 * (j 0).val = t.val / 16 * 1024 + (j 0).val
    rw [(index4 t).1]; omega
  · show win0_4.index t 1 * 512 + 1 * (j 1).val = t.val / 4 % 4 * 512 + (j 1).val
    rw [(index4 t).2]; omega

/-- An entry of the array is in point `t`'s block iff each coordinate is in the block's range on its axis. -/
theorem mem_block (t : Fin cfg0.N) (i : S8192x2048.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v1).slice (win0_4.rect t)).set ↔ _
  rw [View.set_slice_whole, Rect.mem_set_unit]
  exact Iff.rfl

/-- Every entry is in the block of a writing point. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 128 := N_0
  let t : Fin cfg0.N := ⟨(i 0).val / 1024 * 16 + (i 1).val / 512 * 4 + 3, by rw [hN]; omega⟩
  have ht : t.val = (i 0).val / 1024 * 16 + (i 1).val / 512 * 4 + 3 := rfl
  refine ⟨t, (flush0_4 t).mpr (by rw [ht]; omega), ?_⟩
  rw [mem_block]
  intro a
  match a with
  | ⟨0, _⟩ =>
    show win0_4.index t (0 : Fin 2) * 1024 ≤ (i 0).val ∧ (i 0).val < win0_4.index t (0 : Fin 2) * 1024 + 1024
    rw [(index4 t).1, ht]; omega
  | ⟨1, _⟩ =>
    show win0_4.index t (1 : Fin 2) * 512 ≤ (i 1).val ∧ (i 1).val < win0_4.index t (1 : Fin 2) * 512 + 512
    rw [(index4 t).2, ht]; omega

/-- So the result array ends holding the layer function. -/
theorem final (c : Dev nD) : (dats m 0 c).arrAt 4 cfg0.N = result m c :=
  (dats m 0 c).arrAt_eq_of_cover 4 (result m c) (flushed_eq m c) cover

/-- The kernel's run: the result array at the layer function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.Reference.lean ====
/-
  The reference, entry by entry: it multiplies the weights by the switch matrix entry by entry, contracts the input
  with that product over all 4096 coordinates at once, and adds the bias repeated over the rows. At the extended
  reals the contraction is the plain sum, so the result is the layer function of the four arguments.
-/
import proofs.«109275_j4827543241279_1_alg».proof.Proof.Gen.ReferenceIdeal.Read
import proofs.«109275_j4827543241279_1_alg».proof.Proof.Spec

noncomputable section

open scoped BigOperators
open Idealize.ShloMosaic Idealize.ShloMosaic.ValueIdx

namespace Cert.ReferenceIdeal.IsLayer

open Cert.ReferenceIdeal Cert.ReferenceIdeal.Read Cert.MaskedDense

theorem result_eq (x0 : (⟨S8192x4096, .f32⟩ : BufTy).Contents (Elt Ideal)) (x1 : (⟨S4096x2048, .f32⟩ : BufTy).Contents (Elt Ideal))
    (x2 : (⟨S2048, .f32⟩ : BufTy).Contents (Elt Ideal)) (x3 : (⟨S4096x2048, .f32⟩ : BufTy).Contents (Elt Ideal)) :
    val_main_v4 (F := Ideal) x0 x1 x2 x3 = layer (R := 8192) (K := 4096) (N := 2048) x0 x1 x3 x2 := by
  funext i
  obtain ⟨a, n, rfl⟩ : ∃ (a : Fin 8192) (n : Fin 2048), i = ix2 a n := ⟨i 0, i 1, eq_ix2 i⟩
  rw [val_main_v4_apply, val_main_v1_apply, val_main_v3_apply, val_main_v2_apply]
  have el : ∀ k : Fin 4096, lidx_main_v1 (ix2 a n) k = ix2 a k := fun k => funext fun d => Fin.ext (by
    match d with | ⟨0, _⟩ => rfl | ⟨1, _⟩ => rfl)
  have er : ∀ k : Fin 4096, ridx_main_v1 (ix2 a n) k = ix2 k n := fun k => funext fun d => Fin.ext (by
    match d with | ⟨0, _⟩ => rfl | ⟨1, _⟩ => rfl)
  have eb : idx_main_v2 (idx_main_v3 (ix2 a n)) = ix1 n := funext fun d => Fin.ext (by
    match d with | ⟨0, _⟩ => rfl)
  show (∑ k : Fin 4096, x0 (lidx_main_v1 (ix2 a n) k) * val_main_v0 (F := Ideal) x1 x3 (ridx_main_v1 (ix2 a n) k))
      + x2 (idx_main_v2 (idx_main_v3 (ix2 a n)))
    = partialDot (R := 8192) (K := 4096) (N := 2048) x0 x1 x3 a.val n.val 4096 + x2 (ix1 n)
  rw [partialDot_full, eb]
  congr 1
  refine Finset.sum_congr rfl fun k _ => ?_
  rw [el, er, val_main_v0_apply]
  rfl

end Cert.ReferenceIdeal.IsLayer

end
-- ==== Proof.lean ====
/-
  A dense layer whose weight matrix is switched on and off entry by entry by a second matrix, plus a bias:
  out = X · (W ∘ M) + b, with X of 8192 × 4096, W and M of 4096 × 2048, b of length 2048.

  The kernel walks a grid of 8 row blocks × 4 column blocks × 4 contraction blocks, the contraction fastest. For one
  output block it keeps a running 1024 × 512 block in a scratch buffer: set to zero at the first contraction block, then
  at each of the four contraction blocks increased by the product of the input's block with the entrywise product of the
  weights' and the switch matrix's blocks; at the fourth the running block plus the bias row goes to the output. The
  reference forms W ∘ M, contracts over all 4096 coordinates at once, and adds the bias.

  Over the extended reals a change of float format changes no entry and both products are plain sums, so the kernel's
  scratch after its k-th contraction block holds the first 1024·(k + 1) terms of the reference's sum, in the same order
  (Proof/Accum.lean: a range of the natural numbers split in two, no term moved past another), the fourth block's store
  is the whole sum plus the bias (Proof/Result.lean, which also shows that the 32 written blocks tile the array), and the
  reference's result is the same function of the arguments (Proof/Reference.lean). Nothing in this needs the inputs to be
  finite. The idealized kernel is the kernel's own text read over the extended reals, so there is nothing to preserve.
-/
import proofs.«109275_j4827543241279_1_alg».proof.Defs
import proofs.«109275_j4827543241279_1_alg».proof.Proof.Gen.Kernel
import proofs.«109275_j4827543241279_1_alg».proof.Proof.Gen.Kernel.Skeleton
import proofs.«109275_j4827543241279_1_alg».proof.Proof.Gen.Kernel.Launch
import proofs.«109275_j4827543241279_1_alg».proof.Proof.Gen.Kernel.Points
import proofs.«109275_j4827543241279_1_alg».proof.Proof.Gen.Kernel.Frame
import proofs.«109275_j4827543241279_1_alg».proof.Proof.Gen.KernelIdeal
import proofs.«109275_j4827543241279_1_alg».proof.Proof.Gen.KernelIdeal.Skeleton
import proofs.«109275_j4827543241279_1_alg».proof.Proof.Gen.KernelIdeal.Launch
import proofs.«109275_j4827543241279_1_alg».proof.Proof.Gen.KernelIdeal.Points
import proofs.«109275_j4827543241279_1_alg».proof.Proof.Gen.KernelIdeal.Frame
import proofs.«109275_j4827543241279_1_alg».proof.Proof.Gen.ReferenceIdeal
import proofs.«109275_j4827543241279_1_alg».proof.Proof.Gen.KernelIdeal.Value
import proofs.«109275_j4827543241279_1_alg».proof.Proof.Gen.ReferenceIdeal.Run
import proofs.«109275_j4827543241279_1_alg».proof.Proof.Gen.ReferenceIdeal.Read
import proofs.«109275_j4827543241279_1_alg».proof.Proof.Gen.Pre_finite_inputs
import proofs.«109275_j4827543241279_1_alg».proof.Proof.Result
import proofs.«109275_j4827543241279_1_alg».proof.Proof.Reference
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is five host operations in a row: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer function of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.IsLayer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
